-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S2048x256 : Shape := ⟨2, ![2048, 256]⟩
abbrev S1x256 : Shape := ⟨2, ![1, 256]⟩
abbrev S512x2048 : Shape := ⟨2, ![512, 2048]⟩

abbrev nBuf : Space → Nat
  | .hbm => 17
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S2048x256, .f32⟩
  | .local _ .vmem, ⟨7, _⟩ => ⟨S2048x256, .f32⟩
  | .local _ .vmem, ⟨8, _⟩ => ⟨S1x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S1x256, .f32⟩
  | .local _ .vmem, ⟨13, _⟩ => ⟨S1x256, .f32⟩
  | .local _ .vmem, ⟨14, _⟩ => ⟨S2048x256, .f32⟩
  | .local _ .vmem, ⟨15, _⟩ => ⟨S2048x256, .f32⟩
  | .local _ .vmem, ⟨16, _⟩ => ⟨S1x256, .f32⟩
  | .local _ .vmem, ⟨17, _⟩ => ⟨S1x256, .f32⟩
  | .local _ .vmem, ⟨18, _⟩ => ⟨S2048x256, .f32⟩
  | .local _ .vmem, ⟨19, _⟩ => ⟨S2048x256, .f32⟩
  | .local _ .vmem, ⟨20, _⟩ => ⟨S1x256, .f32⟩
  | .local _ .vmem, ⟨21, _⟩ => ⟨S1x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  concatenates_S512x1024_S512x1024_S512x2048_d1 : Shape.Concatenates [S512x1024, S512x1024] S512x2048 1
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x1024.size a
  hwx0_2 : ∀ i : grid0.Coords, EltTy.bits .f32 = 32 ∨ (Rect.block (s := S4096x1024) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x1024.size a
  hwx0_3 : ∀ i : grid0.Coords, EltTy.bits .f32 = 32 ∨ (Rect.block (s := S2048x1024) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x1024.size a
  hwx0_4 : ∀ i : grid0.Coords, EltTy.bits .f32 = 32 ∨ (Rect.block (s := S1x1024) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x1024.size a
  hwx0_5 : ∀ i : grid0.Coords, EltTy.bits .f32 = 32 ∨ (Rect.block (s := S2048x1024) S2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x1024.size a
  hwx0_6 : ∀ i : grid0.Coords, EltTy.bits .f32 = 32 ∨ (Rect.block (s := S1x1024) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x1024.size a
  hwx0_7 : ∀ i : grid0.Coords, EltTy.bits .f32 = 32 ∨ (Rect.block (s := S2048x1024) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x1024.size a
  hwx0_8 : ∀ i : grid0.Coords, EltTy.bits .f32 = 32 ∨ (Rect.block (s := S1x1024) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x1024.size a
  hwx0_9 : ∀ i : grid0.Coords, EltTy.bits .f32 = 32 ∨ (Rect.block (s := S2048x1024) S2048x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x1024.size a
  hwx0_10 : ∀ i : grid0.Coords, EltTy.bits .f32 = 32 ∨ (Rect.block (s := S1x1024) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S4096x1024.size a
  hwx0_11 : ∀ i : grid0.Coords, EltTy.bits .f32 = 32 ∨ (Rect.block (s := S4096x1024) S512x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S4096x1024.size a
  hwx0_12 : ∀ i : grid0.Coords, EltTy.bits .f32 = 32 ∨ (Rect.block (s := S4096x1024) S512x256.size (cc0_transform_12 i) (hinb0_12 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S512x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S512x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x2048, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x2048_S2048x1024_S4096x1024_1_0_0_1_n_n_wf : DotDims.WF S4096x2048 S2048x1024 S4096x1024 [1] [0] [0] [1] [] []

variable [Facts₀]

def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.Cell.lean ====
/-
  One step of an LSTM cell, as a function of whole arrays over the extended reals.

  The input row `[x | h]` of width 2048 is the row of `x` followed by the row of `h`. A gate's
  pre-activation at (P, Q) is the inner product of that row with column Q of the gate's weight matrix, plus
  the gate's bias at Q. With σ the logistic function, the new cell state is
  `σ(pre_f) · c + σ(pre_i) · tanh(pre_c)` and the new hidden state is `σ(pre_o) · tanh(new cell state)`.
-/
import Idealize.ShloMosaic.PureOps.Ideal
import Idealize.ShloMosaic.PureOps.Ideal.Laws
import Idealize.ShloMosaic.Lib.ValueIdx

noncomputable section

namespace Cert.LstmCell

open Idealize.ShloMosaic Idealize.ShloMosaic.ValueIdx
open scoped BigOperators

/-- A matrix of extended reals with `r` rows and `c` columns. -/
abbrev Mat (r c : Nat) := FVec Ideal (⟨2, ![r, c]⟩ : Shape) .f32
/-- A vector of extended reals of length `n`. -/
abbrev Row (n : Nat) := FVec Ideal (⟨1, ![n]⟩ : Shape) .f32

/-- Entry `k` of row `P` of `[x | h]`: from `x` for `k < 1024`, from `h` at `k - 1024` after that. -/
def joined (x h : Mat 4096 1024) (P : Fin 4096) (k : Fin 2048) : EReal :=
  if hk : k.val < 1024 then x (ix2 P ⟨k.val, hk⟩) else h (ix2 P ⟨k.val - 1024, by omega⟩)

/-- A gate's pre-activation at (P, Q): row `P` of `[x | h]` times column `Q` of `W`, plus `b Q`. -/
def gatePre (x h : Mat 4096 1024) (W : Mat 2048 1024) (b : Row 1024) (P : Fin 4096) (Q : Fin 1024) : EReal :=
  (∑ k : Fin 2048, joined x h P k * W (ix2 k Q)) + b (ix1 Q)

/-- The new cell state: forget gate times the old state plus input gate times the candidate. -/
def cellState (x h c : Mat 4096 1024) (Wf : Mat 2048 1024) (bf : Row 1024) (Wi : Mat 2048 1024) (bi : Row 1024)
    (Wc : Mat 2048 1024) (bc : Row 1024) : Mat 4096 1024 := fun i =>
  Ideal.logistic (gatePre x h Wf bf (i 0) (i 1)) * c i
    + Ideal.logistic (gatePre x h Wi bi (i 0) (i 1)) * Ideal.tanh (gatePre x h Wc bc (i 0) (i 1))

/-- The new hidden state: output gate times `tanh` of the new cell state. -/
def hiddenState (x h c : Mat 4096 1024) (Wf : Mat 2048 1024) (bf : Row 1024) (Wi : Mat 2048 1024) (bi : Row 1024)
    (Wc : Mat 2048 1024) (bc : Row 1024) (Wo : Mat 2048 1024) (bo : Row 1024) : Mat 4096 1024 := fun i =>
  Ideal.logistic (gatePre x h Wo bo (i 0) (i 1)) * Ideal.tanh (cellState x h c Wf bf Wi bi Wc bc i)

end Cert.LstmCell

end
-- ==== Proof.RefCell.lean ====
/-
  The reference computes the LSTM cell of `Cell.lean`.

  Its row `[x | h]` is a concatenation of the whole arrays along the column axis, read at a column `k` from `x` for
  `k < 1024` and from `h` at `k - 1024` otherwise. Each gate's pre-activation is the host's matrix product of that
  concatenation with the gate's weights, a sum over the 2048 columns, plus the bias broadcast down the rows. The
  reference spells the logistic function `1 / (1 + exp (-z))` with the constant `1.0`, whose value is the real `1`;
  on the extended reals that expression is the logistic function at every `z`, the infinities included.
-/
import proofs.«133784_j35450660061928_1_alg».proof.Defs
import proofs.«133784_j35450660061928_1_alg».proof.Proof.Gen.ReferenceIdeal.Run
import proofs.«133784_j35450660061928_1_alg».proof.Proof.Gen.ReferenceIdeal.Read
import proofs.«133784_j35450660061928_1_alg».proof.Proof.Cell
import Idealize.ShloMosaic.Lib.Pipeline.Value
import Idealize.ShloMosaic.Lib.ValueIdx
import Idealize.ShloMosaic.PureOps.Ideal.Laws
import Idealize.ShloMosaic.PureOps.IdealRules

noncomputable section

namespace Cert.ReferenceIdeal.RefCell

open Cert.ReferenceIdeal Cert.ReferenceIdeal.Read Cert.LstmCell
open Idealize.ShloMosaic Idealize.ShloMosaic.ValueIdx
open scoped BigOperators

/-- The pattern of `1.0` denotes the real number one. -/
theorem one_f32 : FloatOps.ofBits (F := Ideal) .f32 0x3F800000#32 = (1 : EReal) :=
  IdealRules.sign_bit.ideal_onePat .f32

/-- The concatenated array at row `i 0`, column `k` is entry `k` of the joined row. -/
theorem joined_whole (x0 x1 : (⟨S4096x1024, .f32⟩ : BufTy).Contents (Elt Ideal)) (i : S4096x1024.Idx) (k : Fin 2048) :
    val_main_v0 (F := Ideal) x0 x1 (lidx_main_v1 i k) = joined x0 x1 (i 0) k := by
  have hk2 : k.val < 2048 := k.isLt
  unfold val_main_v0 joined
  by_cases hk : k.val < 1024
  · rw [dif_pos hk]
    exact concatenate_pair_apply_left (1 : Fin S4096x2048.rank) x0 x1 _ (lidx_main_v1 i k) rfl (ix2 (i 0) ⟨k.val, hk⟩)
      (fun b => match b with | ⟨0, _⟩ => rfl | ⟨1, _⟩ => rfl)
  · rw [dif_neg hk]
    exact concatenate_pair_apply_right (1 : Fin S4096x2048.rank) x0 x1 _ (lidx_main_v1 i k) rfl rfl
      (ix2 (i 0) ⟨k.val - 1024, by omega⟩)
      (fun b => match b with | ⟨0, _⟩ => fun _ => rfl | ⟨1, _⟩ => fun h => absurd rfl h)
      (by show (k.val - 1024) + 1024 = k.val; omega)

/-- A gate's pre-activation in the reference: the product with the concatenation plus the broadcast bias. -/
theorem pre_ref (x0 x1 : (⟨S4096x1024, .f32⟩ : BufTy).Contents (Elt Ideal)) (W : (⟨S2048x1024, .f32⟩ : BufTy).Contents (Elt Ideal))
    (b : (⟨S1024, .f32⟩ : BufTy).Contents (Elt Ideal)) (i : S4096x1024.Idx) :
    val_main_v4 (F := Ideal) x0 x1 W b i = gatePre x0 x1 W b (i 0) (i 1) := by
  rw [val_main_v4_apply, val_main_v1_apply, val_main_v3_apply, val_main_v2_apply]
  unfold gatePre
  show (∑ k : Fin 2048, val_main_v0 (F := Ideal) x0 x1 (lidx_main_v1 i k) * W (ridx_main_v1 i k)) + b (idx_main_v2 (idx_main_v3 i)) = _
  refine congrArg₂ (· + ·) (Finset.sum_congr rfl fun k _ => ?_) ?_
  · rw [joined_whole]
    exact congrArg (fun j => joined x0 x1 (i 0) k * W j) (funext fun a => match a with | ⟨0, _⟩ => rfl | ⟨1, _⟩ => rfl)
  · exact congrArg b (funext fun a => match a with | ⟨0, _⟩ => rfl)

/-- The reference's `1 / (1 + exp (-z))` at a gate's pre-activation is the logistic function of it. -/
theorem gate_ref (x0 x1 : (⟨S4096x1024, .f32⟩ : BufTy).Contents (Elt Ideal)) (W : (⟨S2048x1024, .f32⟩ : BufTy).Contents (Elt Ideal))
    (b : (⟨S1024, .f32⟩ : BufTy).Contents (Elt Ideal)) (i : S4096x1024.Idx) :
    val_main_v10 (F := Ideal) x0 x1 W b i = Ideal.logistic (gatePre x0 x1 W b (i 0) (i 1)) := by
  rw [val_main_v10_apply, val_main_v9_apply, val_main_cst_0_apply, val_main_v8_apply, val_main_v7_apply,
    val_main_cst_apply, val_main_v6_apply, val_main_v5_apply, pre_ref, one_f32]
  rfl

/-- The reference's second result is the new cell state. -/
theorem cell_ref (x0 x1 x2 : (⟨S4096x1024, .f32⟩ : BufTy).Contents (Elt Ideal)) (x3 : (⟨S2048x1024, .f32⟩ : BufTy).Contents (Elt Ideal))
    (x4 : (⟨S1024, .f32⟩ : BufTy).Contents (Elt Ideal)) (x5 : (⟨S2048x1024, .f32⟩ : BufTy).Contents (Elt Ideal))
    (x6 : (⟨S1024, .f32⟩ : BufTy).Contents (Elt Ideal)) (x7 : (⟨S2048x1024, .f32⟩ : BufTy).Contents (Elt Ideal))
    (x8 : (⟨S1024, .f32⟩ : BufTy).Contents (Elt Ideal)) :
    val_main_v38 (F := Ideal) x0 x1 x2 x3 x4 x5 x6 x7 x8 = cellState x0 x1 x2 x3 x4 x5 x6 x7 x8 := by
  funext i
  rw [val_main_v38_apply, val_main_v36_apply, val_main_v37_apply, val_main_v25_apply,
    show val_main_v20 (F := Ideal) x0 x1 x5 x6 = val_main_v10 (F := Ideal) x0 x1 x5 x6 from rfl,
    show val_main_v24 (F := Ideal) x0 x1 x7 x8 = val_main_v4 (F := Ideal) x0 x1 x7 x8 from rfl,
    gate_ref, gate_ref, pre_ref]
  rfl

/-- The reference's first result is the new hidden state. -/
theorem hidden_ref (x0 x1 x2 : (⟨S4096x1024, .f32⟩ : BufTy).Contents (Elt Ideal)) (x3 : (⟨S2048x1024, .f32⟩ : BufTy).Contents (Elt Ideal))
    (x4 : (⟨S1024, .f32⟩ : BufTy).Contents (Elt Ideal)) (x5 : (⟨S2048x1024, .f32⟩ : BufTy).Contents (Elt Ideal))
    (x6 : (⟨S1024, .f32⟩ : BufTy).Contents (Elt Ideal)) (x7 : (⟨S2048x1024, .f32⟩ : BufTy).Contents (Elt Ideal))
    (x8 : (⟨S1024, .f32⟩ : BufTy).Contents (Elt Ideal)) (x9 : (⟨S2048x1024, .f32⟩ : BufTy).Contents (Elt Ideal))
    (x10 : (⟨S1024, .f32⟩ : BufTy).Contents (Elt Ideal)) :
    val_main_v40 (F := Ideal) x0 x1 x2 x3 x4 x5 x6 x7 x8 x9 x10 = hiddenState x0 x1 x2 x3 x4 x5 x6 x7 x8 x9 x10 := by
  funext i
  rw [val_main_v40_apply, val_main_v39_apply, cell_ref,
    show val_main_v35 (F := Ideal) x0 x1 x9 x10 = val_main_v10 (F := Ideal) x0 x1 x9 x10 from rfl, gate_ref]
  rfl

end Cert.ReferenceIdeal.RefCell

end
-- ==== Proof.BlockCell.lean ====
/-
  What the kernel body computes on one grid point's blocks, entry by entry, over the extended reals.

  The body holds 512 rows of `x` and of `h` and 256 columns of each gate's weights and bias. It joins the two row
  blocks along the columns (their change of float format is the identity on the extended reals), multiplies the joined
  block by a weight block on the matrix unit into a zero accumulator — entry (p, q) is the sum over the 2048 joined
  columns `k` of joined (p, k) times weight (k, q) —, adds the bias row broadcast down the 512 rows, and applies the
  logistic function or `tanh`. So an entry of a stored block is the LSTM cell's formula over the blocks' entries.
-/
import proofs.«133784_j35450660061928_1_alg».proof.Defs
import proofs.«133784_j35450660061928_1_alg».proof.Proof.Gen.KernelIdeal.Skeleton
import proofs.«133784_j35450660061928_1_alg».proof.Proof.Cell
import Idealize.ShloMosaic.Lib.Pipeline.Value
import Idealize.ShloMosaic.Lib.ValueIdx
import Idealize.ShloMosaic.PureOps.Ideal.Laws

noncomputable section

namespace Cert.KernelIdeal.BlockCell

open Cert.KernelIdeal Cert.KernelIdeal.Gen Cert.LstmCell
open Idealize.ShloMosaic Idealize.ShloMosaic.ValueIdx
open scoped BigOperators

/-- Entry `k` of row `p` of the joined block `[x0 | x1]`. -/
def joinedBlk (x0 x1 : Vec Ideal S512x1024 .f32) (p : Fin 512) (k : Fin 2048) : EReal :=
  if hk : k.val < 1024 then x0 (ix2 p ⟨k.val, hk⟩) else x1 (ix2 p ⟨k.val - 1024, by omega⟩)

/-- The body's concatenation of the two row blocks, read at an entry. -/
theorem joined_block (x0 x1 : Vec Ideal S512x1024 .f32) (p : Fin 512) (k : Fin 2048) :
    k0_pay3 (F := Ideal) x0 x1 (ix2 p k) = joinedBlk x0 x1 p k := by
  have hk2 : k.val < 2048 := k.isLt
  unfold k0_pay3 joinedBlk
  by_cases hk : k.val < 1024
  · rw [dif_pos hk]
    exact concatenate_pair_apply_left (s₁ := S512x1024) (s₂ := S512x1024) (1 : Fin S512x2048.rank) _ _ _ (ix2 p k) rfl (ix2 p ⟨k.val, hk⟩)
      (fun b => match b with | ⟨0, _⟩ => rfl | ⟨1, _⟩ => rfl)
  · rw [dif_neg hk]
    exact concatenate_pair_apply_right (s₁ := S512x1024) (s₂ := S512x1024) (1 : Fin S512x2048.rank) _ _ _ (ix2 p k) rfl rfl
      (ix2 p ⟨k.val - 1024, by omega⟩)
      (fun b => match b with | ⟨0, _⟩ => fun _ => rfl | ⟨1, _⟩ => fun h => absurd rfl h)
      (by show (k.val - 1024) + 1024 = k.val; omega)

/-! The operand indices of the body's matrix product at an output entry and a contraction index. -/

theorem lhs_dot_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_dot_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_dot_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_dot_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- The body's matrix product into the zero accumulator at entry (p, q): the sum over the joined columns. -/
theorem product_block (l : FVec Ideal S512x2048 .bf16) (w : Vec Ideal S2048x256 .f32) (p : Fin 512) (q : Fin 256) :
    matmul dot_S512x2048_S2048x256_S512x256_1_0_0_1_n_n none l (truncf .bf16 w bitsLt_bf16_f32) (constant S512x256 .f32 0x00000000#32) (ix2 p q)
      = ∑ k : Fin 2048, l (ix2 p k) * w (ix2 k q) := by
  simp only [matmul]
  rw [Ideal.matmul_constant_zero_apply, ← Equiv.sum_comp (ValueIdx.contrEquiv1 dot_S512x2048_S2048x256_S512x256_1_0_0_1_n_n 2048 rfl rfl).symm]
  refine Finset.sum_congr rfl fun k _ => ?_
  have hk := ValueIdx.contrEquiv1_symm_val dot_S512x2048_S2048x256_S512x256_1_0_0_1_n_n 2048 rfl rfl k
  have el : dot_S512x2048_S2048x256_S512x256_1_0_0_1_n_n.lhsIdx (ix2 p q) ((ValueIdx.contrEquiv1 dot_S512x2048_S2048x256_S512x256_1_0_0_1_n_n 2048 rfl rfl).symm k) = ix2 p k := funext fun a => Fin.ext (by
    match a with
    | ⟨0, _⟩ => exact lhs_dot_0 _ _
    | ⟨1, _⟩ => exact (lhs_dot_1 _ _).trans hk)
  have er : dot_S512x2048_S2048x256_S512x256_1_0_0_1_n_n.rhsIdx (ix2 p q) ((ValueIdx.contrEquiv1 dot_S512x2048_S2048x256_S512x256_1_0_0_1_n_n 2048 rfl rfl).symm k) = ix2 k q := funext fun a => Fin.ext (by
    match a with
    | ⟨0, _⟩ => exact (rhs_dot_0 _ _).trans hk
    | ⟨1, _⟩ => exact rhs_dot_1 _ _)
  rw [el, er]
  rfl

/-- The bias row, cast to its own shape and broadcast down the rows, read at entry (p, q): the row at `q`. -/
theorem bias_block (b : Vec Ideal S1x256 .f32) (p : Fin 512) (q : Fin 256) :
    broadcastTo S512x256 (shapeCast S1x256 b shapeCasts_S1x256_S1x256) broadcasts_S1x256_S512x256 (ix2 p q)
      = b (ix2 (0 : Fin 1) q) := by
  rw [shapeCast_self]
  exact broadcastTo_apply _ _ (ix2 p q) (ix2 (0 : Fin 1) q) (fun a => match a with
    | ⟨0, _⟩ => by show 0 = (if (1 : Nat) = 1 then 0 else p.val); rw [if_pos rfl]
    | ⟨1, _⟩ => by show q.val = (if (256 : Nat) = 1 then 0 else q.val); rw [if_neg (by decide)])

/-- A gate's pre-activation on the blocks at entry (p, q). -/
def preBlk (x0 x1 : Vec Ideal S512x1024 .f32) (w : Vec Ideal S2048x256 .f32) (b : Vec Ideal S1x256 .f32) (p : Fin 512) (q : Fin 256) : EReal :=
  (∑ k : Fin 2048, joinedBlk x0 x1 p k * w (ix2 k q)) + b (ix2 (0 : Fin 1) q)

/-- The forget gate's payload at an entry. -/
theorem forget_block (x0 x1 : Vec Ideal S512x1024 .f32) (w : Vec Ideal S2048x256 .f32) (b : Vec Ideal S1x256 .f32) (p : Fin 512) (q : Fin 256) :
    k0_pay4 (F := Ideal) x0 x1 w b (ix2 p q) = Ideal.logistic (preBlk x0 x1 w b p q) := by
  unfold k0_pay4 preBlk
  show Ideal.logistic (matmul dot_S512x2048_S2048x256_S512x256_1_0_0_1_n_n none (k0_pay3 x0 x1) (truncf .bf16 w bitsLt_bf16_f32) (constant S512x256 .f32 0x00000000#32) (ix2 p q)
    + broadcastTo S512x256 (shapeCast S1x256 b shapeCasts_S1x256_S1x256) broadcasts_S1x256_S512x256 (ix2 p q)) = _
  rw [product_block, bias_block]
  simp only [joined_block]

/-- The input gate's payload at an entry. -/
theorem input_block (x0 x1 : Vec Ideal S512x1024 .f32) (w : Vec Ideal S2048x256 .f32) (b : Vec Ideal S1x256 .f32) (p : Fin 512) (q : Fin 256) :
    k0_pay5 (F := Ideal) x0 x1 w b (ix2 p q) = Ideal.logistic (preBlk x0 x1 w b p q) := by
  unfold k0_pay5 preBlk
  show Ideal.logistic (matmul dot_S512x2048_S2048x256_S512x256_1_0_0_1_n_n none (k0_pay3 x0 x1) (truncf .bf16 w bitsLt_bf16_f32) (constant S512x256 .f32 0x00000000#32) (ix2 p q)
    + broadcastTo S512x256 (shapeCast S1x256 b shapeCasts_S1x256_S1x256) broadcasts_S1x256_S512x256 (ix2 p q)) = _
  rw [product_block, bias_block]
  simp only [joined_block]

/-- The candidate's payload at an entry. -/
theorem candidate_block (x0 x1 : Vec Ideal S512x1024 .f32) (w : Vec Ideal S2048x256 .f32) (b : Vec Ideal S1x256 .f32) (p : Fin 512) (q : Fin 256) :
    k0_pay6 (F := Ideal) x0 x1 w b (ix2 p q) = Ideal.tanh (preBlk x0 x1 w b p q) := by
  unfold k0_pay6 preBlk
  show Ideal.tanh (matmul dot_S512x2048_S2048x256_S512x256_1_0_0_1_n_n none (k0_pay3 x0 x1) (truncf .bf16 w bitsLt_bf16_f32) (constant S512x256 .f32 0x00000000#32) (ix2 p q)
    + broadcastTo S512x256 (shapeCast S1x256 b shapeCasts_S1x256_S1x256) broadcasts_S1x256_S512x256 (ix2 p q)) = _
  rw [product_block, bias_block]
  simp only [joined_block]

/-- The stored cell-state block at an entry. -/
theorem cell_block (x0 x1 : Vec Ideal S512x1024 .f32) (c : Vec Ideal S512x256 .f32)
    (wf : Vec Ideal S2048x256 .f32) (bf : Vec Ideal S1x256 .f32) (wi : Vec Ideal S2048x256 .f32) (bi : Vec Ideal S1x256 .f32)
    (wc : Vec Ideal S2048x256 .f32) (bc : Vec Ideal S1x256 .f32) (p : Fin 512) (q : Fin 256) :
    k0_pay1 (F := Ideal) (k0_pay4 x0 x1 wf bf) (k0_pay5 x0 x1 wi bi) (k0_pay6 x0 x1 wc bc) c (ix2 p q)
      = Ideal.logistic (preBlk x0 x1 wf bf p q) * c (ix2 p q)
        + Ideal.logistic (preBlk x0 x1 wi bi p q) * Ideal.tanh (preBlk x0 x1 wc bc p q) := by
  unfold k0_pay1
  show k0_pay4 (F := Ideal) x0 x1 wf bf (ix2 p q) * c (ix2 p q) + k0_pay5 (F := Ideal) x0 x1 wi bi (ix2 p q) * k0_pay6 (F := Ideal) x0 x1 wc bc (ix2 p q) = _
  rw [forget_block, input_block, candidate_block]

/-- The stored hidden-state block at an entry. -/
theorem hidden_block (x0 x1 : Vec Ideal S512x1024 .f32) (c : Vec Ideal S512x256 .f32)
    (wf : Vec Ideal S2048x256 .f32) (bf : Vec Ideal S1x256 .f32) (wi : Vec Ideal S2048x256 .f32) (bi : Vec Ideal S1x256 .f32)
    (wc : Vec Ideal S2048x256 .f32) (bc : Vec Ideal S1x256 .f32) (wo : Vec Ideal S2048x256 .f32) (bo : Vec Ideal S1x256 .f32) (p : Fin 512) (q : Fin 256) :
    k0_pay2 (F := Ideal) (k0_pay4 x0 x1 wf bf) (k0_pay5 x0 x1 wi bi) (k0_pay6 x0 x1 wc bc) (k0_pay7 x0 x1 wo) (k0_pay8 bo) c (ix2 p q)
      = Ideal.logistic (preBlk x0 x1 wo bo p q)
        * Ideal.tanh (Ideal.logistic (preBlk x0 x1 wf bf p q) * c (ix2 p q)
          + Ideal.logistic (preBlk x0 x1 wi bi p q) * Ideal.tanh (preBlk x0 x1 wc bc p q)) := by
  unfold k0_pay2 k0_pay7 k0_pay8 preBlk
  show Ideal.logistic (matmul dot_S512x2048_S2048x256_S512x256_1_0_0_1_n_n none (k0_pay3 x0 x1) (truncf .bf16 wo bitsLt_bf16_f32) (constant S512x256 .f32 0x00000000#32) (ix2 p q)
      + broadcastTo S512x256 (shapeCast S1x256 bo shapeCasts_S1x256_S1x256) broadcasts_S1x256_S512x256 (ix2 p q))
    * Ideal.tanh (k0_pay1 (F := Ideal) (k0_pay4 x0 x1 wf bf) (k0_pay5 x0 x1 wi bi) (k0_pay6 x0 x1 wc bc) c (ix2 p q)) = _
  rw [product_block, bias_block, cell_block]
  simp only [joined_block]
  rfl

end Cert.KernelIdeal.BlockCell

end
-- ==== Proof.TileCell.lean ====
/-
  From one tile to the whole arrays.

  The grid cuts the 4096 rows into 8 row blocks of 512 and the 1024 gate columns into 4 column blocks of 256. Tile
  (R, C) holds rows `512 R + p` of `x`, `h` and the cell state, and columns `256 C + q` of the weights, the biases and the
  cell state. The joined row of the blocks is then the joined row of the arrays, a gate's pre-activation on the blocks is
  the gate's pre-activation on the arrays at (512 R + p, 256 C + q), and so are the new cell and hidden states.
-/
import proofs.«133784_j35450660061928_1_alg».proof.Proof.Cell
import proofs.«133784_j35450660061928_1_alg».proof.Proof.BlockCell

noncomputable section

namespace Cert.KernelIdeal.TileCell

open Cert.KernelIdeal Cert.KernelIdeal.BlockCell Cert.LstmCell
open Idealize.ShloMosaic Idealize.ShloMosaic.ValueIdx
open scoped BigOperators

/-- Row `p` of row block `R`. -/
def rowAt (R : Fin 8) (p : Fin 512) : Fin 4096 := ⟨R.val * 512 + p.val, by omega⟩
/-- Column `q` of column block `C`. -/
def colAt (C : Fin 4) (q : Fin 256) : Fin 1024 := ⟨C.val * 256 + q.val, by omega⟩

section
variable (X H : Mat 4096 1024) (x0 x1 : Vec Ideal S512x1024 .f32) (R : Fin 8) (C : Fin 4)
  (hx0 : ∀ (p : Fin 512) (k : Fin 1024), x0 (ix2 p k) = X (ix2 (rowAt R p) k))
  (hx1 : ∀ (p : Fin 512) (k : Fin 1024), x1 (ix2 p k) = H (ix2 (rowAt R p) k))
include hx0 hx1

/-- The joined row of the blocks is the joined row of the arrays. -/
theorem joined_tile (p : Fin 512) (k : Fin 2048) : joinedBlk x0 x1 p k = joined X H (rowAt R p) k := by
  unfold joinedBlk joined
  by_cases hk : k.val < 1024
  · rw [dif_pos hk, dif_pos hk, hx0]
  · rw [dif_neg hk, dif_neg hk, hx1]

/-- A gate's pre-activation on the blocks is its pre-activation on the arrays. -/
theorem pre_tile (W : Mat 2048 1024) (b : Row 1024) (w : Vec Ideal S2048x256 .f32) (bb : Vec Ideal S1x256 .f32)
    (hw : ∀ (k : Fin 2048) (q : Fin 256), w (ix2 k q) = W (ix2 k (colAt C q)))
    (hb : ∀ q : Fin 256, bb (ix2 (0 : Fin 1) q) = b (ix1 (colAt C q))) (p : Fin 512) (q : Fin 256) :
    preBlk x0 x1 w bb p q = gatePre X H W b (rowAt R p) (colAt C q) := by
  unfold preBlk gatePre
  rw [hb]
  refine congrArg (· + b (ix1 (colAt C q))) (Finset.sum_congr rfl fun k _ => ?_)
  rw [joined_tile X H x0 x1 R hx0 hx1, hw]

/-- The new cell state of a tile. -/
theorem cell_tile (Cs : Mat 4096 1024) (Wf : Mat 2048 1024) (bf : Row 1024) (Wi : Mat 2048 1024) (bi : Row 1024)
    (Wc : Mat 2048 1024) (bc : Row 1024) (c0 : Vec Ideal S512x256 .f32)
    (wf : Vec Ideal S2048x256 .f32) (b_f : Vec Ideal S1x256 .f32) (wi : Vec Ideal S2048x256 .f32) (b_i : Vec Ideal S1x256 .f32)
    (wc : Vec Ideal S2048x256 .f32) (b_c : Vec Ideal S1x256 .f32)
    (hc0 : ∀ (p : Fin 512) (q : Fin 256), c0 (ix2 p q) = Cs (ix2 (rowAt R p) (colAt C q)))
    (hwf : ∀ (k : Fin 2048) (q : Fin 256), wf (ix2 k q) = Wf (ix2 k (colAt C q)))
    (hbf : ∀ q : Fin 256, b_f (ix2 (0 : Fin 1) q) = bf (ix1 (colAt C q)))
    (hwi : ∀ (k : Fin 2048) (q : Fin 256), wi (ix2 k q) = Wi (ix2 k (colAt C q)))
    (hbi : ∀ q : Fin 256, b_i (ix2 (0 : Fin 1) q) = bi (ix1 (colAt C q)))
    (hwc : ∀ (k : Fin 2048) (q : Fin 256), wc (ix2 k q) = Wc (ix2 k (colAt C q)))
    (hbc : ∀ q : Fin 256, b_c (ix2 (0 : Fin 1) q) = bc (ix1 (colAt C q)))
    (p : Fin 512) (q : Fin 256) :
    Ideal.logistic (preBlk x0 x1 wf b_f p q) * c0 (ix2 p q)
        + Ideal.logistic (preBlk x0 x1 wi b_i p q) * Ideal.tanh (preBlk x0 x1 wc b_c p q)
      = cellState X H Cs Wf bf Wi bi Wc bc (ix2 (rowAt R p) (colAt C q)) := by
  rw [pre_tile X H x0 x1 R C hx0 hx1 Wf bf wf b_f hwf hbf, pre_tile X H x0 x1 R C hx0 hx1 Wi bi wi b_i hwi hbi,
    pre_tile X H x0 x1 R C hx0 hx1 Wc bc wc b_c hwc hbc, hc0]
  rfl

/-- The new hidden state of a tile. -/
theorem hidden_tile (Cs : Mat 4096 1024) (Wf : Mat 2048 1024) (bf : Row 1024) (Wi : Mat 2048 1024) (bi : Row 1024)
    (Wc : Mat 2048 1024) (bc : Row 1024) (Wo : Mat 2048 1024) (bo : Row 1024) (c0 : Vec Ideal S512x256 .f32)
    (wf : Vec Ideal S2048x256 .f32) (b_f : Vec Ideal S1x256 .f32) (wi : Vec Ideal S2048x256 .f32) (b_i : Vec Ideal S1x256 .f32)
    (wc : Vec Ideal S2048x256 .f32) (b_c : Vec Ideal S1x256 .f32) (wo : Vec Ideal S2048x256 .f32) (b_o : Vec Ideal S1x256 .f32)
    (hc0 : ∀ (p : Fin 512) (q : Fin 256), c0 (ix2 p q) = Cs (ix2 (rowAt R p) (colAt C q)))
    (hwf : ∀ (k : Fin 2048) (q : Fin 256), wf (ix2 k q) = Wf (ix2 k (colAt C q)))
    (hbf : ∀ q : Fin 256, b_f (ix2 (0 : Fin 1) q) = bf (ix1 (colAt C q)))
    (hwi : ∀ (k : Fin 2048) (q : Fin 256), wi (ix2 k q) = Wi (ix2 k (colAt C q)))
    (hbi : ∀ q : Fin 256, b_i (ix2 (0 : Fin 1) q) = bi (ix1 (colAt C q)))
    (hwc : ∀ (k : Fin 2048) (q : Fin 256), wc (ix2 k q) = Wc (ix2 k (colAt C q)))
    (hbc : ∀ q : Fin 256, b_c (ix2 (0 : Fin 1) q) = bc (ix1 (colAt C q)))
    (hwo : ∀ (k : Fin 2048) (q : Fin 256), wo (ix2 k q) = Wo (ix2 k (colAt C q)))
    (hbo : ∀ q : Fin 256, b_o (ix2 (0 : Fin 1) q) = bo (ix1 (colAt C q)))
    (p : Fin 512) (q : Fin 256) :
    Ideal.logistic (preBlk x0 x1 wo b_o p q)
        * Ideal.tanh (Ideal.logistic (preBlk x0 x1 wf b_f p q) * c0 (ix2 p q)
          + Ideal.logistic (preBlk x0 x1 wi b_i p q) * Ideal.tanh (preBlk x0 x1 wc b_c p q))
      = hiddenState X H Cs Wf bf Wi bi Wc bc Wo bo (ix2 (rowAt R p) (colAt C q)) := by
  rw [cell_tile X H x0 x1 R C hx0 hx1 Cs Wf bf Wi bi Wc bc c0 wf b_f wi b_i wc b_c hc0 hwf hbf hwi hbi hwc hbc,
    pre_tile X H x0 x1 R C hx0 hx1 Wo bo wo b_o hwo hbo]
  rfl

end

end Cert.KernelIdeal.TileCell

end
-- ==== Proof.ArrayCell.lean ====
/-
  The kernel's two result arrays after the run.

  Grid point `t` is tile (R, C) of the 8 × 4 tiling: the index maps, decided over the 32 points, put the blocks of `x`
  and `h` at row block R, the blocks of the weights and biases at column block C, and the blocks of the old cell state
  and of both results at (R, C). Each bias reaches the kernel as a one-row matrix, the host's reshape of the bias vector.
  What a point writes back is therefore its tile of the new hidden state, or of the new cell state, as functions of
  the whole argument arrays; the 32 tiles cover each result array, so after the run the arrays hold those functions.
-/
import proofs.«133784_j35450660061928_1_alg».proof.Defs
import proofs.«133784_j35450660061928_1_alg».proof.Proof.Gen.KernelIdeal.Value
import proofs.«133784_j35450660061928_1_alg».proof.Proof.Cell
import proofs.«133784_j35450660061928_1_alg».proof.Proof.BlockCell
import proofs.«133784_j35450660061928_1_alg».proof.Proof.TileCell
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.ArrayCell

open Cert.KernelIdeal Cert.KernelIdeal.Gen Cert.KernelIdeal.BlockCell Cert.KernelIdeal.TileCell Cert.LstmCell
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits -/

/-- The index maps over the grid: which row block and column block each window's block is, against the second
    result's block index, which ranges over the 8 × 4 tiles. -/
theorem idx_facts : ∀ t : Fin cfg0.N, win0_0.index t (0 : Fin 2) = win0_12.index t (0 : Fin 2)
    ∧ win0_0.index t (1 : Fin 2) = 0
    ∧ win0_1.index t (0 : Fin 2) = win0_12.index t (0 : Fin 2)
    ∧ win0_1.index t (1 : Fin 2) = 0
    ∧ win0_2.index t (0 : Fin 2) = win0_12.index t (0 : Fin 2)
    ∧ win0_2.index t (1 : Fin 2) = win0_12.index t (1 : Fin 2)
    ∧ win0_3.index t (0 : Fin 2) = 0
    ∧ win0_3.index t (1 : Fin 2) = win0_12.index t (1 : Fin 2)
    ∧ win0_4.index t (0 : Fin 2) = 0
    ∧ win0_4.index t (1 : Fin 2) = win0_12.index t (1 : Fin 2)
    ∧ win0_5.index t (0 : Fin 2) = 0
    ∧ win0_5.index t (1 : Fin 2) = win0_12.index t (1 : Fin 2)
    ∧ win0_6.index t (0 : Fin 2) = 0
    ∧ win0_6.index t (1 : Fin 2) = win0_12.index t (1 : Fin 2)
    ∧ win0_7.index t (0 : Fin 2) = 0
    ∧ win0_7.index t (1 : Fin 2) = win0_12.index t (1 : Fin 2)
    ∧ win0_8.index t (0 : Fin 2) = 0
    ∧ win0_8.index t (1 : Fin 2) = win0_12.index t (1 : Fin 2)
    ∧ win0_9.index t (0 : Fin 2) = 0
    ∧ win0_9.index t (1 : Fin 2) = win0_12.index t (1 : Fin 2)
    ∧ win0_10.index t (0 : Fin 2) = 0
    ∧ win0_10.index t (1 : Fin 2) = win0_12.index t (1 : Fin 2)
    ∧ win0_11.index t (0 : Fin 2) = win0_12.index t (0 : Fin 2)
    ∧ win0_11.index t (1 : Fin 2) = win0_12.index t (1 : Fin 2)
    ∧ win0_12.index t (0 : Fin 2) < 8
    ∧ win0_12.index t (1 : Fin 2) < 4 :=
  (by decide +kernel : ∀ t : Fin grid0.N, _)

/-- Every tile is some point's. -/
theorem idx_onto : ∀ (q0 : Fin 8) (q1 : Fin 4), ∃ t : Fin cfg0.N, win0_12.index t = ![q0.val, q1.val] :=
  (by decide +kernel : ∀ (q0 : Fin 8) (q1 : Fin 4), ∃ t : Fin grid0.N, win0_12.index t = ![q0.val, q1.val])

/-! ## The input blocks read off the argument arrays -/

/-- Window 0's block holds row block `R` of its array, all 1024 columns. -/
theorem read_x (c : Dev nD) (t : Fin cfg0.N) (R : Fin 8) (e0 : win0_0.index t (0 : Fin 2) = R.val) (e1 : win0_0.index t (1 : Fin 2) = 0)
    (p : Fin 512) (k : Fin 1024) :
    (iblk m c 0 t : Vec Ideal S512x1024 .f32) (ix2 p k) = m ((c : Thread nD τ).loc main_arg0) (ix2 (rowAt R p) k) := by
  unfold iblk
  rw [View.read_apply]
  show V m c main_arg0 _ = _
  rw [V_main_arg0]
  congr 1
  funext a; apply Fin.ext
  match a with
  | ⟨0, _⟩ => show win0_0.index t (0 : Fin 2) * 512 + 1 * p.val = R.val * 512 + p.val; rw [e0]; omega
  | ⟨1, _⟩ => show win0_0.index t (1 : Fin 2) * 1024 + 1 * k.val = k.val; rw [e1]; omega

/-- Window 1's block holds row block `R` of its array, all 1024 columns. -/
theorem read_h (c : Dev nD) (t : Fin cfg0.N) (R : Fin 8) (e0 : win0_1.index t (0 : Fin 2) = R.val) (e1 : win0_1.index t (1 : Fin 2) = 0)
    (p : Fin 512) (k : Fin 1024) :
    (iblk m c 1 t : Vec Ideal S512x1024 .f32) (ix2 p k) = m ((c : Thread nD τ).loc main_arg1) (ix2 (rowAt R p) k) := by
  unfold iblk
  rw [View.read_apply]
  show V m c main_arg1 _ = _
  rw [V_main_arg1]
  congr 1
  funext a; apply Fin.ext
  match a with
  | ⟨0, _⟩ => show win0_1.index t (0 : Fin 2) * 512 + 1 * p.val = R.val * 512 + p.val; rw [e0]; omega
  | ⟨1, _⟩ => show win0_1.index t (1 : Fin 2) * 1024 + 1 * k.val = k.val; rw [e1]; omega

/-- Window 2's block holds tile (R, C) of the old cell state. -/
theorem read_c (c : Dev nD) (t : Fin cfg0.N) (R : Fin 8) (C : Fin 4) (e0 : win0_2.index t (0 : Fin 2) = R.val) (e1 : win0_2.index t (1 : Fin 2) = C.val)
    (p : Fin 512) (q : Fin 256) :
    (iblk m c 2 t : Vec Ideal S512x256 .f32) (ix2 p q) = m ((c : Thread nD τ).loc main_arg2) (ix2 (rowAt R p) (colAt C q)) := by
  unfold iblk
  rw [View.read_apply]
  show V m c main_arg2 _ = _
  rw [V_main_arg2]
  congr 1
  funext a; apply Fin.ext
  match a with
  | ⟨0, _⟩ => show win0_2.index t (0 : Fin 2) * 512 + 1 * p.val = R.val * 512 + p.val; rw [e0]; omega
  | ⟨1, _⟩ => show win0_2.index t (1 : Fin 2) * 256 + 1 * q.val = C.val * 256 + q.val; rw [e1]; omega

/-- Window 3's block holds every row and column block `C` of its weight matrix. -/
theorem read_wf (c : Dev nD) (t : Fin cfg0.N) (C : Fin 4) (e0 : win0_3.index t (0 : Fin 2) = 0) (e1 : win0_3.index t (1 : Fin 2) = C.val)
    (k : Fin 2048) (q : Fin 256) :
    (iblk m c 3 t : Vec Ideal S2048x256 .f32) (ix2 k q) = m ((c : Thread nD τ).loc main_arg3) (ix2 k (colAt C q)) := by
  unfold iblk
  rw [View.read_apply]
  show V m c main_arg3 _ = _
  rw [V_main_arg3]
  congr 1
  funext a; apply Fin.ext
  match a with
  | ⟨0, _⟩ => show win0_3.index t (0 : Fin 2) * 2048 + 1 * k.val = k.val; rw [e0]; omega
  | ⟨1, _⟩ => show win0_3.index t (1 : Fin 2) * 256 + 1 * q.val = C.val * 256 + q.val; rw [e1]; omega

/-- Window 5's block holds every row and column block `C` of its weight matrix. -/
theorem read_wi (c : Dev nD) (t : Fin cfg0.N) (C : Fin 4) (e0 : win0_5.index t (0 : Fin 2) = 0) (e1 : win0_5.index t (1 : Fin 2) = C.val)
    (k : Fin 2048) (q : Fin 256) :
    (iblk m c 5 t : Vec Ideal S2048x256 .f32) (ix2 k q) = m ((c : Thread nD τ).loc main_arg5) (ix2 k (colAt C q)) := by
  unfold iblk
  rw [View.read_apply]
  show V m c main_arg5 _ = _
  rw [V_main_arg5]
  congr 1
  funext a; apply Fin.ext
  match a with
  | ⟨0, _⟩ => show win0_5.index t (0 : Fin 2) * 2048 + 1 * k.val = k.val; rw [e0]; omega
  | ⟨1, _⟩ => show win0_5.index t (1 : Fin 2) * 256 + 1 * q.val = C.val * 256 + q.val; rw [e1]; omega

/-- Window 7's block holds every row and column block `C` of its weight matrix. -/
theorem read_wc (c : Dev nD) (t : Fin cfg0.N) (C : Fin 4) (e0 : win0_7.index t (0 : Fin 2) = 0) (e1 : win0_7.index t (1 : Fin 2) = C.val)
    (k : Fin 2048) (q : Fin 256) :
    (iblk m c 7 t : Vec Ideal S2048x256 .f32) (ix2 k q) = m ((c : Thread nD τ).loc main_arg7) (ix2 k (colAt C q)) := by
  unfold iblk
  rw [View.read_apply]
  show V m c main_arg7 _ = _
  rw [V_main_arg7]
  congr 1
  funext a; apply Fin.ext
  match a with
  | ⟨0, _⟩ => show win0_7.index t (0 : Fin 2) * 2048 + 1 * k.val = k.val; rw [e0]; omega
  | ⟨1, _⟩ => show win0_7.index t (1 : Fin 2) * 256 + 1 * q.val = C.val * 256 + q.val; rw [e1]; omega

/-- Window 9's block holds every row and column block `C` of its weight matrix. -/
theorem read_wo (c : Dev nD) (t : Fin cfg0.N) (C : Fin 4) (e0 : win0_9.index t (0 : Fin 2) = 0) (e1 : win0_9.index t (1 : Fin 2) = C.val)
    (k : Fin 2048) (q : Fin 256) :
    (iblk m c 9 t : Vec Ideal S2048x256 .f32) (ix2 k q) = m ((c : Thread nD τ).loc main_arg9) (ix2 k (colAt C q)) := by
  unfold iblk
  rw [View.read_apply]
  show V m c main_arg9 _ = _
  rw [V_main_arg9]
  congr 1
  funext a; apply Fin.ext
  match a with
  | ⟨0, _⟩ => show win0_9.index t (0 : Fin 2) * 2048 + 1 * k.val = k.val; rw [e0]; omega
  | ⟨1, _⟩ => show win0_9.index t (1 : Fin 2) * 256 + 1 * q.val = C.val * 256 + q.val; rw [e1]; omega

/-- The region finds `main_v0` holding its bias vector as one row. -/
theorem V_bf (c : Dev nD) :
    (V m c main_v0 : S1x1024.Idx → EReal) = shapeCast S1x1024 (m ((c : Thread nD τ).loc main_arg4)) shapeCasts_S1024_S1x1024 := by
  dsimp only [V, hostOps0]; after_results; rfl

/-- Window 4's block holds column block `C` of its bias. -/
theorem read_bf (c : Dev nD) (t : Fin cfg0.N) (C : Fin 4) (e0 : win0_4.index t (0 : Fin 2) = 0) (e1 : win0_4.index t (1 : Fin 2) = C.val)
    (q : Fin 256) :
    (iblk m c 4 t : Vec Ideal S1x256 .f32) (ix2 (0 : Fin 1) q) = m ((c : Thread nD τ).loc main_arg4) (ix1 (colAt C q)) := by
  unfold iblk
  rw [View.read_apply]
  show V m c main_v0 _ = _
  rw [V_bf]
  refine (congrArg (shapeCast S1x1024 (m ((c : Thread nD τ).loc main_arg4)) shapeCasts_S1024_S1x1024)
    (?_ : _ = ix2 (0 : Fin 1) (colAt C q))).trans (shapeCast_a_1a_apply _ _ _ _)
  funext a; apply Fin.ext
  match a with
  | ⟨0, _⟩ => show win0_4.index t (0 : Fin 2) * 1 + 1 * 0 = 0; rw [e0]
  | ⟨1, _⟩ => show win0_4.index t (1 : Fin 2) * 256 + 1 * q.val = C.val * 256 + q.val; rw [e1]; omega

/-- The region finds `main_v1` holding its bias vector as one row. -/
theorem V_bi (c : Dev nD) :
    (V m c main_v1 : S1x1024.Idx → EReal) = shapeCast S1x1024 (m ((c : Thread nD τ).loc main_arg6)) shapeCasts_S1024_S1x1024 := by
  dsimp only [V, hostOps0]; after_results; rfl

/-- Window 6's block holds column block `C` of its bias. -/
theorem read_bi (c : Dev nD) (t : Fin cfg0.N) (C : Fin 4) (e0 : win0_6.index t (0 : Fin 2) = 0) (e1 : win0_6.index t (1 : Fin 2) = C.val)
    (q : Fin 256) :
    (iblk m c 6 t : Vec Ideal S1x256 .f32) (ix2 (0 : Fin 1) q) = m ((c : Thread nD τ).loc main_arg6) (ix1 (colAt C q)) := by
  unfold iblk
  rw [View.read_apply]
  show V m c main_v1 _ = _
  rw [V_bi]
  refine (congrArg (shapeCast S1x1024 (m ((c : Thread nD τ).loc main_arg6)) shapeCasts_S1024_S1x1024)
    (?_ : _ = ix2 (0 : Fin 1) (colAt C q))).trans (shapeCast_a_1a_apply _ _ _ _)
  funext a; apply Fin.ext
  match a with
  | ⟨0, _⟩ => show win0_6.index t (0 : Fin 2) * 1 + 1 * 0 = 0; rw [e0]
  | ⟨1, _⟩ => show win0_6.index t (1 : Fin 2) * 256 + 1 * q.val = C.val * 256 + q.val; rw [e1]; omega

/-- The region finds `main_v2` holding its bias vector as one row. -/
theorem V_bc (c : Dev nD) :
    (V m c main_v2 : S1x1024.Idx → EReal) = shapeCast S1x1024 (m ((c : Thread nD τ).loc main_arg8)) shapeCasts_S1024_S1x1024 := by
  dsimp only [V, hostOps0]; after_results; rfl

/-- Window 8's block holds column block `C` of its bias. -/
theorem read_bc (c : Dev nD) (t : Fin cfg0.N) (C : Fin 4) (e0 : win0_8.index t (0 : Fin 2) = 0) (e1 : win0_8.index t (1 : Fin 2) = C.val)
    (q : Fin 256) :
    (iblk m c 8 t : Vec Ideal S1x256 .f32) (ix2 (0 : Fin 1) q) = m ((c : Thread nD τ).loc main_arg8) (ix1 (colAt C q)) := by
  unfold iblk
  rw [View.read_apply]
  show V m c main_v2 _ = _
  rw [V_bc]
  refine (congrArg (shapeCast S1x1024 (m ((c : Thread nD τ).loc main_arg8)) shapeCasts_S1024_S1x1024)
    (?_ : _ = ix2 (0 : Fin 1) (colAt C q))).trans (shapeCast_a_1a_apply _ _ _ _)
  funext a; apply Fin.ext
  match a with
  | ⟨0, _⟩ => show win0_8.index t (0 : Fin 2) * 1 + 1 * 0 = 0; rw [e0]
  | ⟨1, _⟩ => show win0_8.index t (1 : Fin 2) * 256 + 1 * q.val = C.val * 256 + q.val; rw [e1]; omega

/-- The region finds `main_v3` holding its bias vector as one row. -/
theorem V_bo (c : Dev nD) :
    (V m c main_v3 : S1x1024.Idx → EReal) = shapeCast S1x1024 (m ((c : Thread nD τ).loc main_arg10)) shapeCasts_S1024_S1x1024 := by
  dsimp only [V, hostOps0]; after_results; rfl

/-- Window 10's block holds column block `C` of its bias. -/
theorem read_bo (c : Dev nD) (t : Fin cfg0.N) (C : Fin 4) (e0 : win0_10.index t (0 : Fin 2) = 0) (e1 : win0_10.index t (1 : Fin 2) = C.val)
    (q : Fin 256) :
    (iblk m c 10 t : Vec Ideal S1x256 .f32) (ix2 (0 : Fin 1) q) = m ((c : Thread nD τ).loc main_arg10) (ix1 (colAt C q)) := by
  unfold iblk
  rw [View.read_apply]
  show V m c main_v3 _ = _
  rw [V_bo]
  refine (congrArg (shapeCast S1x1024 (m ((c : Thread nD τ).loc main_arg10)) shapeCasts_S1024_S1x1024)
    (?_ : _ = ix2 (0 : Fin 1) (colAt C q))).trans (shapeCast_a_1a_apply _ _ _ _)
  funext a; apply Fin.ext
  match a with
  | ⟨0, _⟩ => show win0_10.index t (0 : Fin 2) * 1 + 1 * 0 = 0; rw [e0]
  | ⟨1, _⟩ => show win0_10.index t (1 : Fin 2) * 256 + 1 * q.val = C.val * 256 + q.val; rw [e1]; omega

/-! ## The result arrays as functions of the arguments -/

/-- The new cell state of the argument arrays. -/
abbrev cellArr (c : Dev nD) : Mat 4096 1024 :=
  cellState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The new hidden state of the argument arrays. -/
abbrev hiddenArr (c : Dev nD) : Mat 4096 1024 :=
  hiddenState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What point `t` writes back through output window 12 is tile (R, C) of the new cell state. -/
theorem flushed_cell_at (c : Dev nD) (t : Fin cfg0.N) (R : Fin 8) (C : Fin 4)
    (eR : win0_12.index t (0 : Fin 2) = R.val) (eC : win0_12.index t (1 : Fin 2) = C.val) :
    (dats m 0 c).flushed 12 t = ((cfg0.win 12).blk t).view.read (Elt Ideal) (cellArr m c) := by
  rw [Value.flushed12]
  unfold out0_12
  rw [View.canon_unit_zero hz]
  simp only [View.ld_unit_zero (S := S512x1024) hz, View.ld_unit_zero (S := S2048x256) hz, View.ld_unit_zero (S := S1x256) hz,
    View.ld_unit_zero (S := S512x256) hz]
  obtain ⟨x0, x1, h0, h1, c0, c1, w3_0, w3_1, w4_0, w4_1, w5_0, w5_1, w6_0, w6_1, w7_0, w7_1, w8_0, w8_1, w9_0, w9_1, w10_0, w10_1, o0, o1, lR, lC⟩ := idx_facts t
  funext y
  have hy0 : (y 0).val < 512 := (y 0).isLt
  have hy1 : (y 1).val < 256 := (y 1).isLt
  have ey : (cfg0.win 12).xinj (grid0.coords t) y = ix2 (⟨(y 0).val, hy0⟩ : Fin 512) (⟨(y 1).val, hy1⟩ : Fin 256) :=
    funext fun a => match a with | ⟨0, _⟩ => rfl | ⟨1, _⟩ => rfl
  have eo : ((cfg0.win 12).blk t).view.emb y = ix2 (rowAt R ⟨(y 0).val, hy0⟩) (colAt C ⟨(y 1).val, hy1⟩) := by
    funext a; apply Fin.ext
    match a with
    | ⟨0, _⟩ => show win0_12.index t (0 : Fin 2) * 512 + 1 * (y 0).val = R.val * 512 + (y 0).val; omega
    | ⟨1, _⟩ => show win0_12.index t (1 : Fin 2) * 256 + 1 * (y 1).val = C.val * 256 + (y 1).val; omega
  show k0_pay1 (F := Ideal) (k0_pay4 (iblk m c 0 t) (iblk m c 1 t) (iblk m c 3 t) (iblk m c 4 t)) (k0_pay5 (iblk m c 0 t) (iblk m c 1 t) (iblk m c 5 t) (iblk m c 6 t)) (k0_pay6 (iblk m c 0 t) (iblk m c 1 t) (iblk m c 7 t) (iblk m c 8 t)) (iblk m c 2 t) ((cfg0.win 12).xinj (grid0.coords t) y) = cellArr m c (((cfg0.win 12).blk t).view.emb y)
  rw [ey, eo]
  refine (cell_block (iblk m c 0 t) (iblk m c 1 t) (iblk m c 2 t) (iblk m c 3 t) (iblk m c 4 t) (iblk m c 5 t) (iblk m c 6 t)
    (iblk m c 7 t) (iblk m c 8 t) ⟨(y 0).val, hy0⟩ ⟨(y 1).val, hy1⟩).trans ?_
  exact cell_tile (m ((c : Thread nD τ).loc main_arg0)) (m ((c : Thread nD τ).loc main_arg1)) (iblk m c 0 t) (iblk m c 1 t) R C
    (read_x m c t R (x0.trans eR) x1) (read_h m c t R (h0.trans eR) h1)
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))
    (iblk m c 2 t) (iblk m c 3 t) (iblk m c 4 t) (iblk m c 5 t) (iblk m c 6 t) (iblk m c 7 t) (iblk m c 8 t)
    (read_c m c t R C (c0.trans eR) (c1.trans eC)) (read_wf m c t C w3_0 (w3_1.trans eC)) (read_bf m c t C w4_0 (w4_1.trans eC))
    (read_wi m c t C w5_0 (w5_1.trans eC)) (read_bi m c t C w6_0 (w6_1.trans eC)) (read_wc m c t C w7_0 (w7_1.trans eC))
    (read_bc m c t C w8_0 (w8_1.trans eC))
    ⟨(y 0).val, hy0⟩ ⟨(y 1).val, hy1⟩

theorem flushed_cell (c : Dev nD) (t : Fin cfg0.N) :
    (dats m 0 c).flushed 12 t = ((cfg0.win 12).blk t).view.read (Elt Ideal) (cellArr m c) := by
  obtain ⟨_, _, _, _, _, _, _, _, _, _, _, _, _, _, _, _, _, _, _, _, _, _, _, _, lR, lC⟩ := idx_facts t
  exact flushed_cell_at m c t ⟨_, lR⟩ ⟨_, lC⟩ rfl rfl

/-- What point `t` writes back through output window 11 is tile (R, C) of the new hidden state. -/
theorem flushed_hidden_at (c : Dev nD) (t : Fin cfg0.N) (R : Fin 8) (C : Fin 4)
    (eR : win0_12.index t (0 : Fin 2) = R.val) (eC : win0_12.index t (1 : Fin 2) = C.val) :
    (dats m 0 c).flushed 11 t = ((cfg0.win 11).blk t).view.read (Elt Ideal) (hiddenArr m c) := by
  rw [Value.flushed11]
  unfold out0_11
  rw [View.canon_unit_zero hz]
  simp only [View.ld_unit_zero (S := S512x1024) hz, View.ld_unit_zero (S := S2048x256) hz, View.ld_unit_zero (S := S1x256) hz,
    View.ld_unit_zero (S := S512x256) hz]
  obtain ⟨x0, x1, h0, h1, c0, c1, w3_0, w3_1, w4_0, w4_1, w5_0, w5_1, w6_0, w6_1, w7_0, w7_1, w8_0, w8_1, w9_0, w9_1, w10_0, w10_1, o0, o1, lR, lC⟩ := idx_facts t
  funext y
  have hy0 : (y 0).val < 512 := (y 0).isLt
  have hy1 : (y 1).val < 256 := (y 1).isLt
  have ey : (cfg0.win 11).xinj (grid0.coords t) y = ix2 (⟨(y 0).val, hy0⟩ : Fin 512) (⟨(y 1).val, hy1⟩ : Fin 256) :=
    funext fun a => match a with | ⟨0, _⟩ => rfl | ⟨1, _⟩ => rfl
  have eo : ((cfg0.win 11).blk t).view.emb y = ix2 (rowAt R ⟨(y 0).val, hy0⟩) (colAt C ⟨(y 1).val, hy1⟩) := by
    funext a; apply Fin.ext
    match a with
    | ⟨0, _⟩ => show win0_11.index t (0 : Fin 2) * 512 + 1 * (y 0).val = R.val * 512 + (y 0).val; omega
    | ⟨1, _⟩ => show win0_11.index t (1 : Fin 2) * 256 + 1 * (y 1).val = C.val * 256 + (y 1).val; omega
  show k0_pay2 (F := Ideal) (k0_pay4 (iblk m c 0 t) (iblk m c 1 t) (iblk m c 3 t) (iblk m c 4 t)) (k0_pay5 (iblk m c 0 t) (iblk m c 1 t) (iblk m c 5 t) (iblk m c 6 t)) (k0_pay6 (iblk m c 0 t) (iblk m c 1 t) (iblk m c 7 t) (iblk m c 8 t)) (k0_pay7 (iblk m c 0 t) (iblk m c 1 t) (iblk m c 9 t)) (k0_pay8 (iblk m c 10 t)) (iblk m c 2 t) ((cfg0.win 11).xinj (grid0.coords t) y) = hiddenArr m c (((cfg0.win 11).blk t).view.emb y)
  rw [ey, eo]
  refine (hidden_block (iblk m c 0 t) (iblk m c 1 t) (iblk m c 2 t) (iblk m c 3 t) (iblk m c 4 t) (iblk m c 5 t) (iblk m c 6 t)
    (iblk m c 7 t) (iblk m c 8 t) (iblk m c 9 t) (iblk m c 10 t) ⟨(y 0).val, hy0⟩ ⟨(y 1).val, hy1⟩).trans ?_
  exact hidden_tile (m ((c : Thread nD τ).loc main_arg0)) (m ((c : Thread nD τ).loc main_arg1)) (iblk m c 0 t) (iblk m c 1 t) R C
    (read_x m c t R (x0.trans eR) x1) (read_h m c t R (h0.trans eR) h1)
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (iblk m c 2 t) (iblk m c 3 t) (iblk m c 4 t) (iblk m c 5 t) (iblk m c 6 t) (iblk m c 7 t) (iblk m c 8 t) (iblk m c 9 t) (iblk m c 10 t)
    (read_c m c t R C (c0.trans eR) (c1.trans eC)) (read_wf m c t C w3_0 (w3_1.trans eC)) (read_bf m c t C w4_0 (w4_1.trans eC))
    (read_wi m c t C w5_0 (w5_1.trans eC)) (read_bi m c t C w6_0 (w6_1.trans eC)) (read_wc m c t C w7_0 (w7_1.trans eC))
    (read_bc m c t C w8_0 (w8_1.trans eC)) (read_wo m c t C w9_0 (w9_1.trans eC)) (read_bo m c t C w10_0 (w10_1.trans eC))
    ⟨(y 0).val, hy0⟩ ⟨(y 1).val, hy1⟩

theorem flushed_hidden (c : Dev nD) (t : Fin cfg0.N) :
    (dats m 0 c).flushed 11 t = ((cfg0.win 11).blk t).view.read (Elt Ideal) (hiddenArr m c) := by
  obtain ⟨_, _, _, _, _, _, _, _, _, _, _, _, _, _, _, _, _, _, _, _, _, _, _, _, lR, lC⟩ := idx_facts t
  exact flushed_hidden_at m c t ⟨_, lR⟩ ⟨_, lC⟩ rfl rfl

/-! ## The tiles cover the arrays -/

/-- An index of the array is in point `t`'s block of window 11 iff each coordinate is in the block's range. -/
theorem mem_blk11 (t : Fin cfg0.N) (i : S4096x1024.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v4_0).slice (win0_11.rect t)).set ↔ _
  rw [View.set_slice_whole, Rect.mem_set_unit]
  exact Iff.rfl

/-- The 32 tiles cover the array: entry (P, Q) lies in tile (P / 512, Q / 256). -/
theorem cover11 (i : S4096x1024.Idx) :
    ∃ t : Fin cfg0.N, (cfg0.win 11).flush t = true ∧ i ∈ ((cfg0.win 11).blk t).view.set := by
  have hi0 : (i 0).val < 4096 := (i 0).isLt
  have hi1 : (i 1).val < 1024 := (i 1).isLt
  obtain ⟨t, ht⟩ := idx_onto ⟨(i 0).val / 512, by omega⟩ ⟨(i 1).val / 256, by omega⟩
  obtain ⟨_, _, _, _, _, _, _, _, _, _, _, _, _, _, _, _, _, _, _, _, _, _, o0, o1, _, _⟩ := idx_facts t
  have q0 : win0_12.index t (0 : Fin 2) = (i 0).val / 512 := congrFun ht 0
  have q1 : win0_12.index t (1 : Fin 2) = (i 1).val / 256 := congrFun ht 1
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 256 ≤ (i 1).val ∧ (i 1).val < win0_11.index t (1 : Fin 2) * 256 + 256; omega

/-- An index of the array is in point `t`'s block of window 12 iff each coordinate is in the block's range. -/
theorem mem_blk12 (t : Fin cfg0.N) (i : S4096x1024.Idx) :
    i ∈ ((cfg0.win 12).blk t).view.set ↔ ∀ a : Fin 2, win0_12.index t a * S512x256.size a ≤ (i a).val ∧ (i a).val < win0_12.index t a * S512x256.size a + S512x256.size a := by
  show i ∈ ((View.whole main_v4_1).slice (win0_12.rect t)).set ↔ _
  rw [View.set_slice_whole, Rect.mem_set_unit]
  exact Iff.rfl

/-- The 32 tiles cover the array: entry (P, Q) lies in tile (P / 512, Q / 256). -/
theorem cover12 (i : S4096x1024.Idx) :
    ∃ t : Fin cfg0.N, (cfg0.win 12).flush t = true ∧ i ∈ ((cfg0.win 12).blk t).view.set := by
  have hi0 : (i 0).val < 4096 := (i 0).isLt
  have hi1 : (i 1).val < 1024 := (i 1).isLt
  obtain ⟨t, ht⟩ := idx_onto ⟨(i 0).val / 512, by omega⟩ ⟨(i 1).val / 256, by omega⟩
  obtain ⟨_, _, _, _, _, _, _, _, _, _, _, _, _, _, _, _, _, _, _, _, _, _, o0, o1, _, _⟩ := idx_facts t
  have q0 : win0_12.index t (0 : Fin 2) = (i 0).val / 512 := congrFun ht 0
  have q1 : win0_12.index t (1 : Fin 2) = (i 1).val / 256 := congrFun ht 1
  refine ⟨t, flush0_12 t, ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 256 ≤ (i 1).val ∧ (i 1).val < win0_12.index t (1 : Fin 2) * 256 + 256; omega

/-- The first result array after the run is the new hidden state. -/
theorem final_hidden (c : Dev nD) : (dats m 0 c).arrAt 11 cfg0.N = hiddenArr m c :=
  (dats m 0 c).arrAt_eq_of_cover 11 (hiddenArr m c) (fun t _ => flushed_hidden m c t) cover11

/-- The second result array after the run is the new cell state. -/
theorem final_cell (c : Dev nD) : (dats m 0 c).arrAt 12 cfg0.N = cellArr m c :=
  (dats m 0 c).arrAt_eq_of_cover 12 (cellArr m c) (fun t _ => flushed_cell m c t) cover12

/-- Every execution of the kernel's program ends with the result arrays at the new hidden and cell states of the
    argument arrays, and the arguments unchanged. -/
theorem run : θ_run defs (onTc (τ := τ) (main (F := Ideal))) ⟨m, fun _ => 0, ρ⟩ fun r => ∀ c : Dev nD,
      r.2.mem ((c : Thread nD τ).loc main_v4_0) = hiddenArr m c
      ∧ r.2.mem ((c : Thread nD τ).loc main_v4_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_hidden m c), (h c).2.1.trans (final_cell m c), (h c).2.2⟩)
    (Value.run_blocks m ρ)

end Cert.KernelIdeal.ArrayCell

end
-- ==== Proof.lean ====
/-
  One step of an LSTM cell, fused into one kernel, against its plain array formulation.

  Both programs take `x`, `h`, the old cell state `c` (4096 × 1024 each) and, for the forget, input, candidate and
  output gates, a 2048 × 1024 weight matrix and a bias of length 1024. With `[x | h]` the 4096 × 2048 matrix whose rows
  are a row of `x` followed by the row of `h`, and σ the logistic function, both compute
      c' = σ([x | h] W_f + b_f) · c + σ([x | h] W_i + b_i) · tanh([x | h] W_c + b_c),
      h' = σ([x | h] W_o + b_o) · tanh(c'),
  and return (h', c').

  The kernel works tile by tile on an 8 × 4 grid: 512 rows of `x` and `h`, 256 columns of every weight matrix and bias.
  It narrows its operands to a shorter float format before the matrix unit and accumulates into zeros; over the extended
  reals the narrowing is the identity and the product is the plain sum over the 2048 joined columns. Its logistic
  operation is `1 / (1 + exp (-z))`, which is how the reference spells it, and both use the same `tanh`. So entry by entry
  the two programs evaluate one expression over the same argument entries: no algebraic law is needed, and the inputs'
  finiteness is not used.

  `Proof/Cell.lean` states h' and c' as functions of whole arrays; `Proof/RefCell.lean` reads the reference's results as
  those functions; `Proof/BlockCell.lean` reads a tile's stored entries from its blocks; `Proof/TileCell.lean` carries a
  tile's entries to the arrays' entries; `Proof/ArrayCell.lean` places the 32 tiles and covers the result arrays.
-/
import proofs.«133784_j35450660061928_1_alg».proof.Defs
import proofs.«133784_j35450660061928_1_alg».proof.Proof.Gen.Kernel
import proofs.«133784_j35450660061928_1_alg».proof.Proof.Gen.Kernel.Skeleton
import proofs.«133784_j35450660061928_1_alg».proof.Proof.Gen.Kernel.Launch
import proofs.«133784_j35450660061928_1_alg».proof.Proof.Gen.Kernel.Points
import proofs.«133784_j35450660061928_1_alg».proof.Proof.Gen.Kernel.Frame
import proofs.«133784_j35450660061928_1_alg».proof.Proof.Gen.KernelIdeal
import proofs.«133784_j35450660061928_1_alg».proof.Proof.Gen.KernelIdeal.Skeleton
import proofs.«133784_j35450660061928_1_alg».proof.Proof.Gen.KernelIdeal.Launch
import proofs.«133784_j35450660061928_1_alg».proof.Proof.Gen.KernelIdeal.Points
import proofs.«133784_j35450660061928_1_alg».proof.Proof.Gen.KernelIdeal.Frame
import proofs.«133784_j35450660061928_1_alg».proof.Proof.Gen.KernelIdeal.Value
import proofs.«133784_j35450660061928_1_alg».proof.Proof.Gen.ReferenceIdeal
import proofs.«133784_j35450660061928_1_alg».proof.Proof.Gen.ReferenceIdeal.Run
import proofs.«133784_j35450660061928_1_alg».proof.Proof.Gen.ReferenceIdeal.Read
import proofs.«133784_j35450660061928_1_alg».proof.Proof.Gen.Pre_finite_inputs
import proofs.«133784_j35450660061928_1_alg».proof.Proof.Cell
import proofs.«133784_j35450660061928_1_alg».proof.Proof.RefCell
import proofs.«133784_j35450660061928_1_alg».proof.Proof.BlockCell
import proofs.«133784_j35450660061928_1_alg».proof.Proof.TileCell
import proofs.«133784_j35450660061928_1_alg».proof.Proof.ArrayCell
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of array operations: it runs, and writes none of its arguments. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From arguments that agree, the kernel's result arrays and the reference's are the new hidden state and the new cell
    state of those arguments. -/
theorem algebraic : Cert.algebraic_KernelIdeal_ReferenceIdeal := by
  intro m ρ m' ρ' _ hagree
  refine ⟨fun c => Cert.KernelIdeal.ArrayCell.hiddenArr m c, fun c => Cert.KernelIdeal.ArrayCell.cellArr m c,
    Cert.KernelIdeal.ArrayCell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v40_eq, Cert.ReferenceIdeal.RefCell.hidden_ref, a0, a1, a2, a3, a4, a5, a6, a7, a8, a9, a10]
  · obtain ⟨a0, a1, a2, a3, a4, a5, a6, a7, a8, a9, a10⟩ := hagree c
    rw [Cert.ReferenceIdeal.Read.val_main_v38_eq, Cert.ReferenceIdeal.RefCell.cell_ref, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
